-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_0)) (v2 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_0) = v1 c
          ∧ r.2.mem ((c.tc : Thread Cert.KernelIdeal.nD Cert.KernelIdeal.τ).loc Cert.KernelIdeal.main_v5_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  main_v73

def fn_part3 {F : FTy → Type} [FloatOps F] (main_arg11 : FVec F S1024 .f32) (main_arg12 : FVec F S1024x1024 .f32) (main_arg13 : FVec F S1024x1024 .f32) (main_arg14 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_v63 main_v67

def fn_part2 {F : FTy → Type} [FloatOps F] (main_arg7 : FVec F S1024x1024 .f32) (main_arg8 : FVec F S1024 .f32) (main_arg9 : FVec F S1024x1024 .f32) (main_arg10 : FVec F S1024x1024 .f32) (main_arg11 : FVec F S1024 .f32) (main_arg12 : FVec F S1024x1024 .f32) (main_arg13 : FVec F S1024x1024 .f32) (main_arg14 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_arg14 main_v48 main_v49 main_v50

def fn_part1 {F : FTy → Type} [FloatOps F] (main_arg4 : FVec F S1024x1024 .f32) (main_arg5 : FVec F S1024 .f32) (main_arg6 : FVec F S1024x1024 .f32) (main_arg7 : FVec F S1024x1024 .f32) (main_arg8 : FVec F S1024 .f32) (main_arg9 : FVec F S1024x1024 .f32) (main_arg10 : FVec F S1024x1024 .f32) (main_arg11 : FVec F S1024 .f32) (main_arg12 : FVec F S1024x1024 .f32) (main_arg13 : FVec F S1024x1024 .f32) (main_arg14 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S1024x1024 .f32) (main_arg5 : FVec F S1024 .f32) (main_arg6 : FVec F S1024x1024 .f32) (main_arg7 : FVec F S1024x1024 .f32) (main_arg8 : FVec F S1024 .f32) (main_arg9 : FVec F S1024x1024 .f32) (main_arg10 : FVec F S1024x1024 .f32) (main_arg11 : FVec F S1024 .f32) (main_arg12 : FVec F S1024x1024 .f32) (main_arg13 : FVec F S1024x1024 .f32) (main_arg14 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S4096 : Shape := ⟨1, ![4096]⟩
abbrev S128x1024 : Shape := ⟨2, ![128, 1024]⟩
abbrev S128x4096 : Shape := ⟨2, ![128, 4096]⟩
abbrev S1x4096 : Shape := ⟨2, ![1, 4096]⟩

abbrev nBuf : Space → Nat
  | .hbm => 22
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024x1024, .f32⟩
  | .hbm, ⟨14, _⟩ => ⟨S1024, .f32⟩
  | .hbm, ⟨15, _⟩ => ⟨S4096x1024, .f32⟩
  | .hbm, ⟨16, _⟩ => ⟨S4096x1024, .bf16⟩
  | .hbm, ⟨17, _⟩ => ⟨S4096x1024, .f32⟩
  | .hbm, ⟨18, _⟩ => ⟨S4096x1024, .bf16⟩
  | .hbm, ⟨19, _⟩ => ⟨S4096, .f32⟩
  | .hbm, ⟨20, _⟩ => ⟨S4096x1024, .f32⟩
  | .hbm, ⟨21, _⟩ => ⟨S4096x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S4096x1024, .bf16⟩
  | .local _ .vmem, ⟨7, _⟩ => ⟨S4096x1024, .bf16⟩
  | .local _ .vmem, ⟨8, _⟩ => ⟨S4096, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5_0 : Ref sig .tc := ⟨.hbm, 20, rfl⟩
abbrev main_v5_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S1024x1024_S1024x1024_S1024x1024_S1024x1024_S4096x1024_d0 : Shape.Concatenates [S1024x1024, S1024x1024, S1024x1024, S1024x1024] S4096x1024 0
  bitsLt_bf16_f32 : FTy.bits .bf16 < FTy.bits .f32
  concatenates_S1024_S1024_S1024_S1024_S4096_d0 : Shape.Concatenates [S1024, S1024, S1024, S1024] S4096 0
  inb_S128x1024_S128x1024_0_0 : ∀ a, (![0, 0] : Fin 2 → Nat) a + S128x1024.size a ≤ S128x1024.size a
  h_S128x1024 : 0 < S128x1024.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S4096_S4096_0 : ∀ a, (![0] : Fin 1 → Nat) a + S4096.size a ≤ S4096.size a
  h_S4096 : 0 < S4096.numel
  shapeCasts_S4096_S4096 : S4096.ShapeCasts S4096
  shapeCasts_S4096_S1x4096 : S4096.ShapeCasts S1x4096
  broadcasts_S1x4096_S128x4096 : S1x4096.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  dot_S128x1024_S4096x1024_S128x4096_1_1_0_0_n_n_wf : DotDims.WF S128x1024 S4096x1024 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .f32 = 32 ∨ (Rect.block (s := S4096x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S4096x1024.size a
  hwx0_1 : ∀ i : grid0.Coords, EltTy.bits .f32 = 32 ∨ (Rect.block (s := S4096x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S4096x1024.size a
  hwx0_2 : ∀ i : grid0.Coords, EltTy.bits .f32 = 32 ∨ (Rect.block (s := S4096x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096.size a ≤ S4096.size a
  hwx0_5 : ∀ i : grid0.Coords, EltTy.bits .f32 = 32 ∨ (Rect.block (s := S4096) S4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S4096x1024.size a
  hwx0_6 : ∀ i : grid0.Coords, EltTy.bits .f32 = 32 ∨ (Rect.block (s := S4096x1024) S128x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S4096x1024.size a
  hwx0_7 : ∀ i : grid0.Coords, EltTy.bits .f32 = 32 ∨ (Rect.block (s := S4096x1024) S128x1024.size (cc0_transform_7 i) (hinb0_7 i)).WholeWords (EltTy.packing .f32)

variable [Facts₀]

def dot_S128x1024_S4096x1024_S128x4096_1_1_0_0_n_n : DotDims S128x1024 S4096x1024 S128x4096 where
  lhsContracting := [1]
  rhsContracting := [1]
  lhsNonContracting := [0]
  rhsNonContracting := [0]
  lhsBatch := []
  rhsBatch := []
  wf := dot_S128x1024_S4096x1024_S128x4096_1_1_0_0_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5_0) S128x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_1) S128x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S4096 : Shape := ⟨1, ![4096]⟩
abbrev S1024x4096 : Shape := ⟨2, ![1024, 4096]⟩
abbrev S4096x4096 : Shape := ⟨2, ![4096, 4096]⟩
abbrev S1x4096 : Shape := ⟨2, ![1, 4096]⟩
abbrev S_ : Shape := ⟨0, ![]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024x1024, .f32⟩
  | .hbm, ⟨14, _⟩ => ⟨S1024, .f32⟩
  | .hbm, ⟨15, _⟩ => ⟨S4096x1024, .f32⟩
  | .hbm, ⟨16, _⟩ => ⟨S4096x1024, .f32⟩
  | .hbm, ⟨17, _⟩ => ⟨S4096, .f32⟩
  | .hbm, ⟨18, _⟩ => ⟨S1024x4096, .f32⟩
  | .hbm, ⟨19, _⟩ => ⟨S4096x4096, .f32⟩
  | .hbm, ⟨20, _⟩ => ⟨S1024x4096, .f32⟩
  | .hbm, ⟨21, _⟩ => ⟨S4096x4096, .f32⟩
  | .hbm, ⟨22, _⟩ => ⟨S4096x4096, .f32⟩
  | .hbm, ⟨23, _⟩ => ⟨S1x4096, .f32⟩
  | .hbm, ⟨24, _⟩ => ⟨S4096x4096, .f32⟩
  | .hbm, ⟨25, _⟩ => ⟨S4096x4096, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_cst_0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_1 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]

class Facts₀ : Prop where
  concatenates_S1024x1024_S1024x1024_S1024x1024_S1024x1024_S4096x1024_d0 : Shape.Concatenates [S1024x1024, S1024x1024, S1024x1024, S1024x1024] S4096x1024 0
  concatenates_S1024_S1024_S1024_S1024_S4096_d0 : Shape.Concatenates [S1024, S1024, S1024, S1024] S4096 0
  transposes_S4096x1024_S1024x4096_1_0 : S4096x1024.Transposes [1, 0] S1024x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.KernelFrame.lean ====
/-
  The frame of `Kernel`: @main is five host operations (three row-wise concatenations of the per-gate
  weights and biases, two changes of float format) followed by ONE pipelined region over 32 grid points.

  * The host operations write only their own five result buffers, so the region finds every argument
    array as it was launched (`V_arg`), and @main up to the region is the library's "operations, then
    the region" shape (`hmain`).
  * At grid point `t` the body reads rows `128 t … 128 t + 127` of `x`, `h_prev` and `c_prev`
    (windows 0, 1, 2: a new block at each point) and the whole of the two weight arrays and the bias
    (windows 3, 4, 5: the same block at every point, fetched once), and stores one whole 128 × 1024 block
    into each of the two results (windows 6, 7). It also loads each result's buffer once before storing
    into it and never uses what it loaded. So each output buffer ends at a function of the six input
    blocks alone (`outH`, `outC`), and nothing is carried from one point to the next.
  * With that as the proof data the library's one-region frame theorem gives the run, and reading its
    post at the fifteen argument arrays (three staged by windows, twelve staged by none) gives the frame.

  Stated for any float instance `F`.
-/
import proofs.«127987_j59966333387333_1_alg».proof.Proof.Gen.Kernel.Launch
import proofs.«127987_j59966333387333_1_alg».proof.Proof.Gen.Kernel.Skeleton
import proofs.«127987_j59966333387333_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the five host operations. -/
abbrev V (c : Dev nD) (b : Ref sig .tc) : Buf (Elt F) ((c : Thread nD τ).loc b) :=
  StableHlo.after hostOps0 (fun b => m (c, b)) b

/-- None of the five host operations allocates. -/
theorem hostOps0_fresh : (hostOps0 : List (HloOp τ sig (Elt F))).Forall fun op => op.fresh = ∅ := by
  simp only [List.Forall]; repeat' constructor

/-- @main is the host operations and then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is none of the five the host operations write (the two concatenated weight arrays, their
    two reformatted copies, the concatenated bias) is found by the region as it was launched. -/
theorem V_arg (c : Dev nD) (b : Ref sig .tc) (h0 : b ≠ main_v0) (h1 : b ≠ main_v1) (h2 : b ≠ main_v2)
    (h3 : b ≠ main_v3) (h4 : b ≠ main_v4) : V m c b = m ((c : Thread nD τ).loc b) :=
  StableHlo.after_of_forall_not_mem (b := Proc.devRef .tc b) _ _ (List.forall_iff_forall_mem.mp (by
    simp only [hostOps0, List.Forall, StableHlo.unary_writes, StableHlo.nary_writes, Finset.mem_singleton]
    exact ⟨StableHlo.devRef_ne_of_ne h0, StableHlo.devRef_ne_of_ne h1, StableHlo.devRef_ne_of_ne h2,
      StableHlo.devRef_ne_of_ne h3, StableHlo.devRef_ne_of_ne h4⟩))

/-! ## The windows' blocks -/

/-- Window `w`'s block at point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-! An input window's current staging buffer holds its block at every point — whether the point fetches it
    (windows 0, 1, 2) or the block index has not moved since the one fetch (windows 3, 4, 5) — for any proof
    data whose array is the region-entry one and whose body leaves the block in place. No input window is
    clipped or ever idle. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the library's frame post — read at
    `x`, `h_prev`, `c_prev` as staged inputs (an input's array ends as it was entered) and at the twelve weight
    and bias arguments as buffers no window stages (left as entered) — is a run to "every argument unchanged". -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_arg m c main_arg0 (by decide) (by decide) (by decide) (by decide) (by decide)))),
      ((h c).1 1).trans (((dats 0 c).arrAt_in 1 rfl _).trans ((hA c 1).trans (V_arg m c main_arg1 (by decide) (by decide) (by decide) (by decide) (by decide)))),
      ((h c).1 2).trans (((dats 0 c).arrAt_in 2 rfl _).trans ((hA c 2).trans (V_arg m c main_arg2 (by decide) (by decide) (by decide) (by decide) (by decide)))),
      ((h c).2 main_arg3 (Pipeline.mem_restRefs_of main_arg3 (by decide) (by decide))).trans (V_arg m c main_arg3 (by decide) (by decide) (by decide) (by decide) (by decide)),
      ((h c).2 main_arg4 (Pipeline.mem_restRefs_of main_arg4 (by decide) (by decide))).trans (V_arg m c main_arg4 (by decide) (by decide) (by decide) (by decide) (by decide)),
      ((h c).2 main_arg5 (Pipeline.mem_restRefs_of main_arg5 (by decide) (by decide))).trans (V_arg m c main_arg5 (by decide) (by decide) (by decide) (by decide) (by decide)),
      ((h c).2 main_arg6 (Pipeline.mem_restRefs_of main_arg6 (by decide) (by decide))).trans (V_arg m c main_arg6 (by decide) (by decide) (by decide) (by decide) (by decide)),
      ((h c).2 main_arg7 (Pipeline.mem_restRefs_of main_arg7 (by decide) (by decide))).trans (V_arg m c main_arg7 (by decide) (by decide) (by decide) (by decide) (by decide)),
      ((h c).2 main_arg8 (Pipeline.mem_restRefs_of main_arg8 (by decide) (by decide))).trans (V_arg m c main_arg8 (by decide) (by decide) (by decide) (by decide) (by decide)),
      ((h c).2 main_arg9 (Pipeline.mem_restRefs_of main_arg9 (by decide) (by decide))).trans (V_arg m c main_arg9 (by decide) (by decide) (by decide) (by decide) (by decide)),
      ((h c).2 main_arg10 (Pipeline.mem_restRefs_of main_arg10 (by decide) (by decide))).trans (V_arg m c main_arg10 (by decide) (by decide) (by decide) (by decide) (by decide)),
      ((h c).2 main_arg11 (Pipeline.mem_restRefs_of main_arg11 (by decide) (by decide))).trans (V_arg m c main_arg11 (by decide) (by decide) (by decide) (by decide) (by decide)),
      ((h c).2 main_arg12 (Pipeline.mem_restRefs_of main_arg12 (by decide) (by decide))).trans (V_arg m c main_arg12 (by decide) (by decide) (by decide) (by decide) (by decide)),
      ((h c).2 main_arg13 (Pipeline.mem_restRefs_of main_arg13 (by decide) (by decide))).trans (V_arg m c main_arg13 (by decide) (by decide) (by decide) (by decide) (by decide)),
      ((h c).2 main_arg14 (Pipeline.mem_restRefs_of main_arg14 (by decide) (by decide))).trans (V_arg m c main_arg14 (by decide) (by decide) (by decide) (by decide) (by decide))⟩) h

/-! ## The body's accesses -/

/-- The whole of a 128 × 1024 staging buffer, -/
abbrev rX : Rect S128x1024 := Rect.unit (s := S128x1024) ![0, 0] S128x1024.size inb_S128x1024_S128x1024_0_0
/-- of a 4096 × 1024 one, -/
abbrev rW : Rect S4096x1024 := Rect.unit (s := S4096x1024) ![0, 0] S4096x1024.size inb_S4096x1024_S4096x1024_0_0
/-- and of the bias's. -/
abbrev rB : Rect S4096 := Rect.unit (s := S4096) ![0] S4096.size inb_S4096_S4096_0

/-! ## What the body leaves in each output window's buffer -/

/-- The hidden-state buffer (window 6) after the body: its one whole-block store, of the payload
    `o · tanh c'` of the six input blocks. -/
def outH (x0 x1 x2 : Vec F S128x1024 .f32) (x3 x4 : Vec F S4096x1024 .bf16) (x5 : Vec F S4096 .f32) : Vec F S128x1024 .f32 :=
  View.canon [⟨rX, k0_pay3 (View.ld x0 rX) (View.ld x1 rX) (View.ld x3 rW) (View.ld x4 rW) (View.ld x5 rB) (View.ld x2 rX)⟩]

/-- The cell-state buffer (window 7) after the body: its one whole-block store, of the payload
    `f · c + i · g` of the six input blocks. -/
def outC (x0 x1 x2 : Vec F S128x1024 .f32) (x3 x4 : Vec F S4096x1024 .bf16) (x5 : Vec F S4096 .f32) : Vec F S128x1024 .f32 :=
  View.canon [⟨rX, k0_pay2 (View.ld x0 rX) (View.ld x1 rX) (View.ld x3 rW) (View.ld x4 rW) (View.ld x5 rB) (View.ld x2 rX)⟩]

/-- One whole-block store covers the buffer. -/
theorem cover_out (p0 : Vec F S128x1024 .f32) (y : S128x1024.Idx) :
    ∃ pc ∈ ([⟨rX, p0⟩] : List (View.Piece (Elt F) S128x1024 .f32)), y ∈ pc.1.set :=
  View.cover_of_tiled [⟨rX, p0⟩] S128x1024.size (by rfl) y

/-! ## The body's triple -/

set_option maxHeartbeats 1000000 in
/-- The kernel body on whole staging memrefs — the six inputs' at known contents, the two outputs' at anything —
    runs to a continuation that holds the inputs' as they were and the outputs' at `outH` and `outC` of the
    inputs'. -/
theorem sound_kernel (c : Dev nD) (E : Set ℕ) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S4096x1024 .bf16) (harg4 : arg4.IsWhole) (arg5 : Memref sig .tc .vmem S4096x1024 .bf16) (harg5 : arg5.IsWhole) (arg6 : Memref sig .tc .vmem S4096 .f32) (harg6 : arg6.IsWhole) (arg7 : Memref sig .tc .vmem S128x1024 .f32) (harg7 : arg7.IsWhole) (arg8 : Memref sig .tc .vmem S128x1024 .f32) (harg8 : arg8.IsWhole)
    (x0 x1 x2 : Vec F S128x1024 .f32) (x3 x4 : Vec F S4096x1024 .bf16) (x5 : Vec F S4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (outH x0 x1 x2 x3 x4 x5) ∗ owns (c : Thread nD τ) arg8 fullShare (outC x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_out _)
  iexists _; isplitr
  swap; · iexact H7
  ipureintro
  exact View.read_writes_eq_canon _ _ _ (cover_out _)

/-! ## The pipeline's proof data -/

/-- The proof data of the one pipeline on core `c`: the arrays as the region finds them; after the body at point
    `t` each input's buffer at its block and each output's at `outH` / `outC` of the six input blocks; the
    invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (iblk m c 0 t) (iblk m c 1 t) (iblk m c 2 t) (iblk m c 3 t) (iblk m c 4 t) (iblk m c 5 t)
    | ⟨7, _⟩ => outC (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents (by projecting the definition: the fold over the host
    operations is never opened). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outH (iblk m c 0 t) (iblk m c 1 t) (iblk m c 2 t) (iblk m c 3 t) (iblk m c 4 t) (iblk m c 5 t) := by dsimp only [dats]
theorem after0_7 (c : Dev nD) (t : Fin cfg0.N) : (dats m 0 c).after 7 t = outC (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so the triple applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    each array of the pipeline at what the library computes from the proof data and every other unscoped buffer
    as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every weakly fair execution terminates, nothing faults, every argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.Fr

end
-- ==== Proof.KernelIdealFrame.lean ====
/-
  The frame of `KernelIdeal`: @main is five host operations (three row-wise concatenations of the per-gate
  weights and biases, two changes of float format) followed by ONE pipelined region over 32 grid points.

  * The host operations write only their own five result buffers, so the region finds every argument
    array as it was launched (`V_arg`), and @main up to the region is the library's "operations, then
    the region" shape (`hmain`).
  * At grid point `t` the body reads rows `128 t … 128 t + 127` of `x`, `h_prev` and `c_prev`
    (windows 0, 1, 2: a new block at each point) and the whole of the two weight arrays and the bias
    (windows 3, 4, 5: the same block at every point, fetched once), and stores one whole 128 × 1024 block
    into each of the two results (windows 6, 7). It also loads each result's buffer once before storing
    into it and never uses what it loaded. So each output buffer ends at a function of the six input
    blocks alone (`outH`, `outC`), and nothing is carried from one point to the next.
  * With that as the proof data the library's one-region frame theorem gives the run, and reading its
    post at the fifteen argument arrays (three staged by windows, twelve staged by none) gives the frame.

  Stated for any float instance `F`.
-/
import proofs.«127987_j59966333387333_1_alg».proof.Proof.Gen.KernelIdeal.Launch
import proofs.«127987_j59966333387333_1_alg».proof.Proof.Gen.KernelIdeal.Skeleton
import proofs.«127987_j59966333387333_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the five host operations. -/
abbrev V (c : Dev nD) (b : Ref sig .tc) : Buf (Elt F) ((c : Thread nD τ).loc b) :=
  StableHlo.after hostOps0 (fun b => m (c, b)) b

/-- None of the five host operations allocates. -/
theorem hostOps0_fresh : (hostOps0 : List (HloOp τ sig (Elt F))).Forall fun op => op.fresh = ∅ := by
  simp only [List.Forall]; repeat' constructor

/-- @main is the host operations and then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is none of the five the host operations write (the two concatenated weight arrays, their
    two reformatted copies, the concatenated bias) is found by the region as it was launched. -/
theorem V_arg (c : Dev nD) (b : Ref sig .tc) (h0 : b ≠ main_v0) (h1 : b ≠ main_v1) (h2 : b ≠ main_v2)
    (h3 : b ≠ main_v3) (h4 : b ≠ main_v4) : V m c b = m ((c : Thread nD τ).loc b) :=
  StableHlo.after_of_forall_not_mem (b := Proc.devRef .tc b) _ _ (List.forall_iff_forall_mem.mp (by
    simp only [hostOps0, List.Forall, StableHlo.unary_writes, StableHlo.nary_writes, Finset.mem_singleton]
    exact ⟨StableHlo.devRef_ne_of_ne h0, StableHlo.devRef_ne_of_ne h1, StableHlo.devRef_ne_of_ne h2,
      StableHlo.devRef_ne_of_ne h3, StableHlo.devRef_ne_of_ne h4⟩))

/-! ## The windows' blocks -/

/-- Window `w`'s block at point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-! An input window's current staging buffer holds its block at every point — whether the point fetches it
    (windows 0, 1, 2) or the block index has not moved since the one fetch (windows 3, 4, 5) — for any proof
    data whose array is the region-entry one and whose body leaves the block in place. No input window is
    clipped or ever idle. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the library's frame post — read at
    `x`, `h_prev`, `c_prev` as staged inputs (an input's array ends as it was entered) and at the twelve weight
    and bias arguments as buffers no window stages (left as entered) — is a run to "every argument unchanged". -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_arg m c main_arg0 (by decide) (by decide) (by decide) (by decide) (by decide)))),
      ((h c).1 1).trans (((dats 0 c).arrAt_in 1 rfl _).trans ((hA c 1).trans (V_arg m c main_arg1 (by decide) (by decide) (by decide) (by decide) (by decide)))),
      ((h c).1 2).trans (((dats 0 c).arrAt_in 2 rfl _).trans ((hA c 2).trans (V_arg m c main_arg2 (by decide) (by decide) (by decide) (by decide) (by decide)))),
      ((h c).2 main_arg3 (Pipeline.mem_restRefs_of main_arg3 (by decide) (by decide))).trans (V_arg m c main_arg3 (by decide) (by decide) (by decide) (by decide) (by decide)),
      ((h c).2 main_arg4 (Pipeline.mem_restRefs_of main_arg4 (by decide) (by decide))).trans (V_arg m c main_arg4 (by decide) (by decide) (by decide) (by decide) (by decide)),
      ((h c).2 main_arg5 (Pipeline.mem_restRefs_of main_arg5 (by decide) (by decide))).trans (V_arg m c main_arg5 (by decide) (by decide) (by decide) (by decide) (by decide)),
      ((h c).2 main_arg6 (Pipeline.mem_restRefs_of main_arg6 (by decide) (by decide))).trans (V_arg m c main_arg6 (by decide) (by decide) (by decide) (by decide) (by decide)),
      ((h c).2 main_arg7 (Pipeline.mem_restRefs_of main_arg7 (by decide) (by decide))).trans (V_arg m c main_arg7 (by decide) (by decide) (by decide) (by decide) (by decide)),
      ((h c).2 main_arg8 (Pipeline.mem_restRefs_of main_arg8 (by decide) (by decide))).trans (V_arg m c main_arg8 (by decide) (by decide) (by decide) (by decide) (by decide)),
      ((h c).2 main_arg9 (Pipeline.mem_restRefs_of main_arg9 (by decide) (by decide))).trans (V_arg m c main_arg9 (by decide) (by decide) (by decide) (by decide) (by decide)),
      ((h c).2 main_arg10 (Pipeline.mem_restRefs_of main_arg10 (by decide) (by decide))).trans (V_arg m c main_arg10 (by decide) (by decide) (by decide) (by decide) (by decide)),
      ((h c).2 main_arg11 (Pipeline.mem_restRefs_of main_arg11 (by decide) (by decide))).trans (V_arg m c main_arg11 (by decide) (by decide) (by decide) (by decide) (by decide)),
      ((h c).2 main_arg12 (Pipeline.mem_restRefs_of main_arg12 (by decide) (by decide))).trans (V_arg m c main_arg12 (by decide) (by decide) (by decide) (by decide) (by decide)),
      ((h c).2 main_arg13 (Pipeline.mem_restRefs_of main_arg13 (by decide) (by decide))).trans (V_arg m c main_arg13 (by decide) (by decide) (by decide) (by decide) (by decide)),
      ((h c).2 main_arg14 (Pipeline.mem_restRefs_of main_arg14 (by decide) (by decide))).trans (V_arg m c main_arg14 (by decide) (by decide) (by decide) (by decide) (by decide))⟩) h

/-! ## The body's accesses -/

/-- The whole of a 128 × 1024 staging buffer, -/
abbrev rX : Rect S128x1024 := Rect.unit (s := S128x1024) ![0, 0] S128x1024.size inb_S128x1024_S128x1024_0_0
/-- of a 4096 × 1024 one, -/
abbrev rW : Rect S4096x1024 := Rect.unit (s := S4096x1024) ![0, 0] S4096x1024.size inb_S4096x1024_S4096x1024_0_0
/-- and of the bias's. -/
abbrev rB : Rect S4096 := Rect.unit (s := S4096) ![0] S4096.size inb_S4096_S4096_0

/-! ## What the body leaves in each output window's buffer -/

/-- The hidden-state buffer (window 6) after the body: its one whole-block store, of the payload
    `o · tanh c'` of the six input blocks. -/
def outH (x0 x1 x2 : Vec F S128x1024 .f32) (x3 x4 : Vec F S4096x1024 .bf16) (x5 : Vec F S4096 .f32) : Vec F S128x1024 .f32 :=
  View.canon [⟨rX, k0_pay3 (View.ld x0 rX) (View.ld x1 rX) (View.ld x3 rW) (View.ld x4 rW) (View.ld x5 rB) (View.ld x2 rX)⟩]

/-- The cell-state buffer (window 7) after the body: its one whole-block store, of the payload
    `f · c + i · g` of the six input blocks. -/
def outC (x0 x1 x2 : Vec F S128x1024 .f32) (x3 x4 : Vec F S4096x1024 .bf16) (x5 : Vec F S4096 .f32) : Vec F S128x1024 .f32 :=
  View.canon [⟨rX, k0_pay2 (View.ld x0 rX) (View.ld x1 rX) (View.ld x3 rW) (View.ld x4 rW) (View.ld x5 rB) (View.ld x2 rX)⟩]

/-- One whole-block store covers the buffer. -/
theorem cover_out (p0 : Vec F S128x1024 .f32) (y : S128x1024.Idx) :
    ∃ pc ∈ ([⟨rX, p0⟩] : List (View.Piece (Elt F) S128x1024 .f32)), y ∈ pc.1.set :=
  View.cover_of_tiled [⟨rX, p0⟩] S128x1024.size (by rfl) y

/-! ## The body's triple -/

set_option maxHeartbeats 1000000 in
/-- The kernel body on whole staging memrefs — the six inputs' at known contents, the two outputs' at anything —
    runs to a continuation that holds the inputs' as they were and the outputs' at `outH` and `outC` of the
    inputs'. -/
theorem sound_kernel (c : Dev nD) (E : Set ℕ) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S4096x1024 .bf16) (harg4 : arg4.IsWhole) (arg5 : Memref sig .tc .vmem S4096x1024 .bf16) (harg5 : arg5.IsWhole) (arg6 : Memref sig .tc .vmem S4096 .f32) (harg6 : arg6.IsWhole) (arg7 : Memref sig .tc .vmem S128x1024 .f32) (harg7 : arg7.IsWhole) (arg8 : Memref sig .tc .vmem S128x1024 .f32) (harg8 : arg8.IsWhole)
    (x0 x1 x2 : Vec F S128x1024 .f32) (x3 x4 : Vec F S4096x1024 .bf16) (x5 : Vec F S4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (outH x0 x1 x2 x3 x4 x5) ∗ owns (c : Thread nD τ) arg8 fullShare (outC x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_out _)
  iexists _; isplitr
  swap; · iexact H7
  ipureintro
  exact View.read_writes_eq_canon _ _ _ (cover_out _)

/-! ## The pipeline's proof data -/

/-- The proof data of the one pipeline on core `c`: the arrays as the region finds them; after the body at point
    `t` each input's buffer at its block and each output's at `outH` / `outC` of the six input blocks; the
    invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (iblk m c 0 t) (iblk m c 1 t) (iblk m c 2 t) (iblk m c 3 t) (iblk m c 4 t) (iblk m c 5 t)
    | ⟨7, _⟩ => outC (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents (by projecting the definition: the fold over the host
    operations is never opened). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outH (iblk m c 0 t) (iblk m c 1 t) (iblk m c 2 t) (iblk m c 3 t) (iblk m c 4 t) (iblk m c 5 t) := by dsimp only [dats]
theorem after0_7 (c : Dev nD) (t : Fin cfg0.N) : (dats m 0 c).after 7 t = outC (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so the triple applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    each array of the pipeline at what the library computes from the proof data and every other unscoped buffer
    as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every weakly fair execution terminates, nothing faults, every argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Fr

end
-- ==== Proof.Spec.lean ====
/-
  The LSTM cell both programs compute, as ONE function of the arrays, index by index, over the extended reals.

  With `Wx`, `Wh` the four gates' weight matrices stacked row-wise (4 · 1024 rows of 1024) and `b` the four
  biases stacked (4 · 1024 entries), row `r` of the batch has the pre-activations

      gate r j = Σ_k x[r,k] · Wx[j,k]  +  Σ_k h[r,k] · Wh[j,k]  +  b[j]          (j < 4096)

  and, reading columns `q`, `1024 + q`, `2048 + q`, `3072 + q` as the input, forget, cell and output gates,

      c'[r,q] = σ(gate r (1024+q)) · c[r,q] + σ(gate r q) · tanh(gate r (2048+q))
      h'[r,q] = σ(gate r (3072+q)) · tanh(c'[r,q])

  with `σ x = 1 / (1 + e^(-x))`. Nothing here needs an entry to be finite: the two programs apply these very
  operations in this very grouping, and differ only in how the sums over `k` are indexed.

  The number of rows `R` is a parameter, so that the same definitions read a 128-row block and the whole
  4096-row array; `cellAt_rows` / `hiddenAt_rows` say a row's result depends only on that row of `x`, `h`, `c`.
-/
import Idealize.ShloMosaic.PureOps.Ideal
import Idealize.ShloMosaic.PureOps.Ideal.Laws
import Idealize.ShloMosaic.Lib.ValueIdx

noncomputable section

namespace Cert.Lstm

open Idealize.ShloMosaic Idealize.ShloMosaic.ValueIdx

/-- Column `o + q` of the 4096 stacked gate columns. -/
abbrev gcol (o : Nat) (ho : o + 1024 ≤ 4096) (q : Fin 1024) : Fin 4096 := ⟨o + q.val, by have := q.isLt; omega⟩

variable {R : Nat}

/-- Row `r`'s pre-activation in stacked column `j`. -/
def gate (x h : (⟨2, ![R, 1024]⟩ : Shape).Idx → EReal) (Wx Wh : (⟨2, ![4096, 1024]⟩ : Shape).Idx → EReal)
    (b : (⟨1, ![4096]⟩ : Shape).Idx → EReal) (r : Fin R) (j : Fin 4096) : EReal :=
  (∑ k : Fin 1024, x (ix2 r k) * Wx (ix2 j k)) + (∑ k : Fin 1024, h (ix2 r k) * Wh (ix2 j k)) + b (ix1 j)

/-- The new cell state at `(r, q)`: forget gate times the old state plus input gate times candidate. -/
def cellAt (x h c : (⟨2, ![R, 1024]⟩ : Shape).Idx → EReal) (Wx Wh : (⟨2, ![4096, 1024]⟩ : Shape).Idx → EReal)
    (b : (⟨1, ![4096]⟩ : Shape).Idx → EReal) (r : Fin R) (q : Fin 1024) : EReal :=
  Ideal.logistic (gate x h Wx Wh b r (gcol 1024 (by norm_num) q)) * c (ix2 r q)
    + Ideal.logistic (gate x h Wx Wh b r (gcol 0 (by norm_num) q)) * Ideal.tanh (gate x h Wx Wh b r (gcol 2048 (by norm_num) q))

/-- The new hidden state at `(r, q)`: output gate times `tanh` of the new cell state. -/
def hiddenAt (x h c : (⟨2, ![R, 1024]⟩ : Shape).Idx → EReal) (Wx Wh : (⟨2, ![4096, 1024]⟩ : Shape).Idx → EReal)
    (b : (⟨1, ![4096]⟩ : Shape).Idx → EReal) (r : Fin R) (q : Fin 1024) : EReal :=
  Ideal.logistic (gate x h Wx Wh b r (gcol 3072 (by norm_num) q)) * Ideal.tanh (cellAt x h c Wx Wh b r q)

/-- The new cell state as an array. -/
def cellArr (x h c : (⟨2, ![R, 1024]⟩ : Shape).Idx → EReal) (Wx Wh : (⟨2, ![4096, 1024]⟩ : Shape).Idx → EReal)
    (b : (⟨1, ![4096]⟩ : Shape).Idx → EReal) : (⟨2, ![R, 1024]⟩ : Shape).Idx → EReal :=
  fun i => cellAt x h c Wx Wh b (i 0) (i 1)

/-- The new hidden state as an array. -/
def hiddenArr (x h c : (⟨2, ![R, 1024]⟩ : Shape).Idx → EReal) (Wx Wh : (⟨2, ![4096, 1024]⟩ : Shape).Idx → EReal)
    (b : (⟨1, ![4096]⟩ : Shape).Idx → EReal) : (⟨2, ![R, 1024]⟩ : Shape).Idx → EReal :=
  fun i => hiddenAt x h c Wx Wh b (i 0) (i 1)

theorem cellArr_ix2 (x h c : (⟨2, ![R, 1024]⟩ : Shape).Idx → EReal) (Wx Wh : (⟨2, ![4096, 1024]⟩ : Shape).Idx → EReal)
    (b : (⟨1, ![4096]⟩ : Shape).Idx → EReal) (r : Fin R) (q : Fin 1024) :
    cellArr x h c Wx Wh b (ix2 r q) = cellAt x h c Wx Wh b r q := rfl

theorem hiddenArr_ix2 (x h c : (⟨2, ![R, 1024]⟩ : Shape).Idx → EReal) (Wx Wh : (⟨2, ![4096, 1024]⟩ : Shape).Idx → EReal)
    (b : (⟨1, ![4096]⟩ : Shape).Idx → EReal) (r : Fin R) (q : Fin 1024) :
    hiddenArr x h c Wx Wh b (ix2 r q) = hiddenAt x h c Wx Wh b r q := rfl

/-! ## A row's result depends only on that row -/

variable {R' : Nat}

/-- If row `r'` of `x'`, `h'` is row `r` of `x`, `h`, the pre-activations agree. -/
theorem gate_rows (x h : (⟨2, ![R, 1024]⟩ : Shape).Idx → EReal) (x' h' : (⟨2, ![R', 1024]⟩ : Shape).Idx → EReal)
    (Wx Wh : (⟨2, ![4096, 1024]⟩ : Shape).Idx → EReal) (b : (⟨1, ![4096]⟩ : Shape).Idx → EReal) (r : Fin R) (r' : Fin R')
    (hx : ∀ k : Fin 1024, x' (ix2 r' k) = x (ix2 r k)) (hh : ∀ k : Fin 1024, h' (ix2 r' k) = h (ix2 r k)) (j : Fin 4096) :
    gate x' h' Wx Wh b r' j = gate x h Wx Wh b r j := by
  unfold gate
  simp only [hx, hh]

/-- If row `r'` of `x'`, `h'`, `c'` is row `r` of `x`, `h`, `c`, the new cell states agree, -/
theorem cellAt_rows (x h c : (⟨2, ![R, 1024]⟩ : Shape).Idx → EReal) (x' h' c' : (⟨2, ![R', 1024]⟩ : Shape).Idx → EReal)
    (Wx Wh : (⟨2, ![4096, 1024]⟩ : Shape).Idx → EReal) (b : (⟨1, ![4096]⟩ : Shape).Idx → EReal) (r : Fin R) (r' : Fin R')
    (hx : ∀ k : Fin 1024, x' (ix2 r' k) = x (ix2 r k)) (hh : ∀ k : Fin 1024, h' (ix2 r' k) = h (ix2 r k))
    (hc : ∀ k : Fin 1024, c' (ix2 r' k) = c (ix2 r k)) (q : Fin 1024) :
    cellAt x' h' c' Wx Wh b r' q = cellAt x h c Wx Wh b r q := by
  unfold cellAt
  simp only [gate_rows x h x' h' Wx Wh b r r' hx hh, hc]

/-- and so do the new hidden states. -/
theorem hiddenAt_rows (x h c : (⟨2, ![R, 1024]⟩ : Shape).Idx → EReal) (x' h' c' : (⟨2, ![R', 1024]⟩ : Shape).Idx → EReal)
    (Wx Wh : (⟨2, ![4096, 1024]⟩ : Shape).Idx → EReal) (b : (⟨1, ![4096]⟩ : Shape).Idx → EReal) (r : Fin R) (r' : Fin R')
    (hx : ∀ k : Fin 1024, x' (ix2 r' k) = x (ix2 r k)) (hh : ∀ k : Fin 1024, h' (ix2 r' k) = h (ix2 r k))
    (hc : ∀ k : Fin 1024, c' (ix2 r' k) = c (ix2 r k)) (q : Fin 1024) :
    hiddenAt x' h' c' Wx Wh b r' q = hiddenAt x h c Wx Wh b r q := by
  unfold hiddenAt
  rw [gate_rows x h x' h' Wx Wh b r r' hx hh, cellAt_rows x h c x' h' c' Wx Wh b r r' hx hh hc]

/-! ## The two spellings of the sigmoid -/

/-- The f32 word `0x3F800000` is the number one. -/
theorem ofBits_one_f32 : Ideal.ofBits .f32 0x3F800000#32 = 1 := by
  simp [Ideal.ofBits, Ideal.ieee, -EReal.coe_mul]; norm_num

/-- `1 / (1 + e^(-x))` spelt with negation, exponential, sum and quotient is the sigmoid, at every extended real. -/
theorem logistic_spelt (x : EReal) : Ideal.div 1 (1 + Ideal.exp (-x)) = Ideal.logistic x := rfl

end Cert.Lstm

end
-- ==== Proof.KernelPay.lean ====
/-
  The idealized kernel's three payloads read at an index, at the ideal values.

  The body forms the 128 × 4096 block of pre-activations (`k0_pay1`): the two matrix products into zero
  accumulators, each contracting the 1024 features of a row of the `x` / `h_prev` block with a ROW of the stacked
  weight array (both operands contract their axis 1), added, plus the stacked bias broadcast down the rows. The
  changes of float format on the way into the products are the identity here. Then the stored cell state
  (`k0_pay2`) and hidden state (`k0_pay3`) read four 1024-column slices of that block at offsets 0, 1024, 2048, 3072.
  At entry `(p, q)` of the block they are the specification's `cellAt` and `hiddenAt` of the six loaded blocks.
-/
import proofs.«127987_j59966333387333_1_alg».proof.Proof.Gen.KernelIdeal.Skeleton
import proofs.«127987_j59966333387333_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-! ## One matrix product of the body at an index -/

theorem lhs_axis0 (i : S128x4096.Idx) (q : dot_S128x1024_S4096x1024_S128x4096_1_1_0_0_n_n.contr.Idx) :
    (dot_S128x1024_S4096x1024_S128x4096_1_1_0_0_n_n.lhsIdx i q 0).val = (i 0).val := by
  unfold DotDims.lhsIdx
  rw [dif_neg (show ¬(0 : Fin S128x1024.rank) ∈ dot_S128x1024_S4096x1024_S128x4096_1_1_0_0_n_n.lhsBatch by decide), dif_pos (show (0 : Fin S128x1024.rank) ∈ dot_S128x1024_S4096x1024_S128x4096_1_1_0_0_n_n.lhsNonContracting by decide)]
  rfl
theorem lhs_axis1 (i : S128x4096.Idx) (q : dot_S128x1024_S4096x1024_S128x4096_1_1_0_0_n_n.contr.Idx) :
    (dot_S128x1024_S4096x1024_S128x4096_1_1_0_0_n_n.lhsIdx i q 1).val = (q ⟨0, by decide⟩).val :=
  dot_S128x1024_S4096x1024_S128x4096_1_1_0_0_n_n.lhsIdx_val_of_single rfl i q
theorem rhs_axis0 (i : S128x4096.Idx) (q : dot_S128x1024_S4096x1024_S128x4096_1_1_0_0_n_n.contr.Idx) :
    (dot_S128x1024_S4096x1024_S128x4096_1_1_0_0_n_n.rhsIdx i q 0).val = (i 1).val := by
  unfold DotDims.rhsIdx
  rw [dif_neg (show ¬(0 : Fin S4096x1024.rank) ∈ dot_S128x1024_S4096x1024_S128x4096_1_1_0_0_n_n.rhsBatch by decide), dif_pos (show (0 : Fin S4096x1024.rank) ∈ dot_S128x1024_S4096x1024_S128x4096_1_1_0_0_n_n.rhsNonContracting by decide)]
  rfl
theorem rhs_axis1 (i : S128x4096.Idx) (q : dot_S128x1024_S4096x1024_S128x4096_1_1_0_0_n_n.contr.Idx) :
    (dot_S128x1024_S4096x1024_S128x4096_1_1_0_0_n_n.rhsIdx i q 1).val = (q ⟨0, by decide⟩).val :=
  dot_S128x1024_S4096x1024_S128x4096_1_1_0_0_n_n.rhsIdx_val_of_single rfl i q

/-- Into a zero accumulator, entry `(p, j)` of the product is row `p` of the left operand against ROW `j` of the
    right one. -/
theorem product_apply (l : FVec Ideal S128x1024 .bf16) (r : FVec Ideal S4096x1024 .bf16) (p : Fin 128) (j : Fin 4096) :
    matmul dot_S128x1024_S4096x1024_S128x4096_1_1_0_0_n_n none l r (constant (F := Ideal) S128x4096 .f32 0x00000000#32) (ix2 p j)
      = ∑ k : Fin 1024, l (ix2 p k) * r (ix2 j k) := by
  simp only [matmul]
  rw [Ideal.matmul_constant_zero_apply, ← Equiv.sum_comp (contrEquiv1 dot_S128x1024_S4096x1024_S128x4096_1_1_0_0_n_n 1024 rfl rfl).symm]
  refine Finset.sum_congr rfl fun k _ => ?_
  have hk := contrEquiv1_symm_val dot_S128x1024_S4096x1024_S128x4096_1_1_0_0_n_n 1024 rfl rfl k
  have el : dot_S128x1024_S4096x1024_S128x4096_1_1_0_0_n_n.lhsIdx (ix2 p j) ((contrEquiv1 dot_S128x1024_S4096x1024_S128x4096_1_1_0_0_n_n 1024 rfl rfl).symm k) = ix2 p k := funext fun a => Fin.ext (by
    match a with
    | ⟨0, _⟩ => exact lhs_axis0 _ _
    | ⟨1, _⟩ => exact (lhs_axis1 _ _).trans hk)
  have er : dot_S128x1024_S4096x1024_S128x4096_1_1_0_0_n_n.rhsIdx (ix2 p j) ((contrEquiv1 dot_S128x1024_S4096x1024_S128x4096_1_1_0_0_n_n 1024 rfl rfl).symm k) = ix2 j k := funext fun a => Fin.ext (by
    match a with
    | ⟨0, _⟩ => exact rhs_axis0 _ _
    | ⟨1, _⟩ => exact (rhs_axis1 _ _).trans hk)
  rw [el, er]

/-! ## The lane-wise functions and a column slice at an index -/

theorem logistic_at {s : Shape} (v : FVec Ideal s .f32) (i : s.Idx) : logistic v i = Ideal.logistic (v i) := rfl
theorem tanh_at {s : Shape} (v : FVec Ideal s .f32) (i : s.Idx) : tanh v i = Ideal.tanh (v i) := rfl

/-- The 1024 columns from `o` of the pre-activation block, at `(p, q)`: the block at column `o + q`. -/
theorem slice_at (o : Nat) (ho : o + 1024 ≤ 4096) (X : FVec Ideal S128x4096 .f32) (h : S128x4096.Slices ![0, o] S128x1024)
    (p : Fin 128) (q : Fin 1024) :
    extractStridedSlice S128x1024 ![0, o] X h (ix2 p q) = X (ix2 p (Lstm.gcol o ho q)) :=
  slice2_axis1_apply o X h p q _ rfl

/-! ## The payloads -/

/-- The pre-activation block at `(p, j)`. -/
theorem pay1_apply (v0 v2 : FVec Ideal S128x1024 .f32) (v4 v6 : FVec Ideal S4096x1024 .bf16) (v11 : FVec Ideal S4096 .f32)
    (p : Fin 128) (j : Fin 4096) :
    k0_pay1 (F := Ideal) v0 v2 v4 v6 v11 (ix2 p j) = Lstm.gate v0 v2 v4 v6 v11 p j := by
  unfold k0_pay1 Lstm.gate
  simp only [addf_apply, product_apply, truncf_apply, shapeCast_self, broadcastTo_1b_ab_apply,
    shapeCast_a_1a_apply]

/-- The stored cell state at `(p, q)`. -/
theorem pay2_apply (v0 v2 : FVec Ideal S128x1024 .f32) (v4 v6 : FVec Ideal S4096x1024 .bf16) (v11 : FVec Ideal S4096 .f32)
    (v24 : FVec Ideal S128x1024 .f32) (p : Fin 128) (q : Fin 1024) :
    k0_pay2 (F := Ideal) v0 v2 v4 v6 v11 v24 (ix2 p q) = Lstm.cellAt v0 v2 v24 v4 v6 v11 p q := by
  unfold k0_pay2 Lstm.cellAt
  simp only [addf_apply, mulf_apply, logistic_at, tanh_at]
  rw [slice_at 1024 (by norm_num), slice_at 0 (by norm_num), slice_at 2048 (by norm_num), pay1_apply, pay1_apply, pay1_apply]

/-- The stored hidden state at `(p, q)`. -/
theorem pay3_apply (v0 v2 : FVec Ideal S128x1024 .f32) (v4 v6 : FVec Ideal S4096x1024 .bf16) (v11 : FVec Ideal S4096 .f32)
    (v24 : FVec Ideal S128x1024 .f32) (p : Fin 128) (q : Fin 1024) :
    k0_pay3 (F := Ideal) v0 v2 v4 v6 v11 v24 (ix2 p q) = Lstm.hiddenAt v0 v2 v24 v4 v6 v11 p q := by
  unfold k0_pay3 Lstm.hiddenAt
  simp only [mulf_apply, logistic_at, tanh_at]
  rw [slice_at 3072 (by norm_num), pay1_apply, pay2_apply]

end Cert.KernelIdeal.Pay

end
-- ==== Proof.KernelValue.lean ====
/-
  The idealized kernel's two result arrays, as whole-array functions of what the region finds.

  Point `t` of the 32-point grid handles rows `128 t … 128 t + 127`: its `x`, `h_prev`, `c_prev` blocks are
  those rows of the arrays, its weight and bias blocks are the whole stacked arrays, and it writes back those
  rows of each result. A row's new cell and hidden state depend only on that row, so what a point writes back
  is its block of the specification's whole-array `cellArr` / `hiddenArr`; the 32 blocks tile the 4096 rows, so
  the result arrays end at those functions. The three arrays the host operations wrote before the region are the
  row-wise stackings of the per-gate arguments (the changes of float format being the identity at the ideal
  values).
-/
import proofs.«127987_j59966333387333_1_alg».proof.Proof.KernelIdealFrame
import proofs.«127987_j59966333387333_1_alg».proof.Proof.KernelPay
import Idealize.ShloMosaic.Lib.Pipeline.Value
import Idealize.ShloMosaic.Lib.StableHlo.Run

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-! ## The six arrays the region reads, as it finds them -/

abbrev xA (c : Dev nD) : FVec Ideal S4096x1024 .f32 := V m c main_arg0
abbrev hA (c : Dev nD) : FVec Ideal S4096x1024 .f32 := V m c main_arg1
abbrev cA (c : Dev nD) : FVec Ideal S4096x1024 .f32 := V m c main_arg2
abbrev wxA (c : Dev nD) : FVec Ideal S4096x1024 .bf16 := V m c main_v1
abbrev whA (c : Dev nD) : FVec Ideal S4096x1024 .bf16 := V m c main_v3
abbrev bA (c : Dev nD) : FVec Ideal S4096 .f32 := V m c main_v4

/-! ## The index maps over the grid, decided once -/

theorem idx_rows0 : ∀ t : Fin cfg0.N, win0_0.index t (0 : Fin 2) = t.val ∧ win0_0.index t (1 : Fin 2) = 0 :=
  (by decide +kernel : ∀ t : Fin grid0.N, _)
theorem idx_rows1 : ∀ t : Fin cfg0.N, win0_1.index t (0 : Fin 2) = t.val ∧ win0_1.index t (1 : Fin 2) = 0 :=
  (by decide +kernel : ∀ t : Fin grid0.N, _)
theorem idx_rows2 : ∀ t : Fin cfg0.N, win0_2.index t (0 : Fin 2) = t.val ∧ win0_2.index t (1 : Fin 2) = 0 :=
  (by decide +kernel : ∀ t : Fin grid0.N, _)
theorem idx_rows6 : ∀ t : Fin cfg0.N, win0_6.index t (0 : Fin 2) = t.val ∧ win0_6.index t (1 : Fin 2) = 0 :=
  (by decide +kernel : ∀ t : Fin grid0.N, _)
theorem idx_rows7 : ∀ t : Fin cfg0.N, win0_7.index t (0 : Fin 2) = t.val ∧ win0_7.index t (1 : Fin 2) = 0 :=
  (by decide +kernel : ∀ t : Fin grid0.N, _)
theorem idx_whole3 : ∀ t : Fin cfg0.N, win0_3.index t (0 : Fin 2) = 0 ∧ win0_3.index t (1 : Fin 2) = 0 :=
  (by decide +kernel : ∀ t : Fin grid0.N, _)
theorem idx_whole4 : ∀ t : Fin cfg0.N, win0_4.index t (0 : Fin 2) = 0 ∧ win0_4.index t (1 : Fin 2) = 0 :=
  (by decide +kernel : ∀ t : Fin grid0.N, _)
theorem idx_whole5 : ∀ t : Fin cfg0.N, win0_5.index t (0 : Fin 1) = 0 :=
  (by decide +kernel : ∀ t : Fin grid0.N, _)

/-- Row `p` of point `t`'s block is row `128 t + p` of the array. -/
def row (t : Fin cfg0.N) (p : Fin 128) : Fin 4096 :=
  ⟨128 * t.val + p.val, by have h : t.val < 32 := lt_of_lt_of_eq t.isLt N_0; have := p.isLt; omega⟩

/-! ## Each input block as a piece of its array -/

/-- Window 0's block at point `t` is rows `128 t … 128 t + 127` of `x`. -/
theorem iblk0_apply (c : Dev nD) (t : Fin cfg0.N) (p : Fin 128) (k : Fin 1024) :
    (iblk m c 0 t : FVec Ideal S128x1024 .f32) (ix2 p k) = xA m c (ix2 (row t p) k) := by
  obtain ⟨i0, i1⟩ := idx_rows0 t
  unfold iblk
  rw [View.read_apply]
  show xA m c _ = xA m c _
  refine congrArg (xA m c) (funext fun a => Fin.ext ?_)
  match a with
  | ⟨0, _⟩ => show win0_0.index t (0 : Fin 2) * 128 + 1 * p.val = 128 * t.val + p.val; rw [i0]; omega
  | ⟨1, _⟩ => show win0_0.index t (1 : Fin 2) * 1024 + 1 * k.val = k.val; rw [i1]; omega
/-- Window 1's block at point `t` is rows `128 t … 128 t + 127` of `h_prev`. -/
theorem iblk1_apply (c : Dev nD) (t : Fin cfg0.N) (p : Fin 128) (k : Fin 1024) :
    (iblk m c 1 t : FVec Ideal S128x1024 .f32) (ix2 p k) = hA m c (ix2 (row t p) k) := by
  obtain ⟨i0, i1⟩ := idx_rows1 t
  unfold iblk
  rw [View.read_apply]
  show hA m c _ = hA m c _
  refine congrArg (hA m c) (funext fun a => Fin.ext ?_)
  match a with
  | ⟨0, _⟩ => show win0_1.index t (0 : Fin 2) * 128 + 1 * p.val = 128 * t.val + p.val; rw [i0]; omega
  | ⟨1, _⟩ => show win0_1.index t (1 : Fin 2) * 1024 + 1 * k.val = k.val; rw [i1]; omega
/-- Window 2's block at point `t` is rows `128 t … 128 t + 127` of `c_prev`. -/
theorem iblk2_apply (c : Dev nD) (t : Fin cfg0.N) (p : Fin 128) (k : Fin 1024) :
    (iblk m c 2 t : FVec Ideal S128x1024 .f32) (ix2 p k) = cA m c (ix2 (row t p) k) := by
  obtain ⟨i0, i1⟩ := idx_rows2 t
  unfold iblk
  rw [View.read_apply]
  show cA m c _ = cA m c _
  refine congrArg (cA m c) (funext fun a => Fin.ext ?_)
  match a with
  | ⟨0, _⟩ => show win0_2.index t (0 : Fin 2) * 128 + 1 * p.val = 128 * t.val + p.val; rw [i0]; omega
  | ⟨1, _⟩ => show win0_2.index t (1 : Fin 2) * 1024 + 1 * k.val = k.val; rw [i1]; omega

/-! The weight windows' and the bias window's block is the whole array, at every point. -/
theorem iblk3_eq (c : Dev nD) (t : Fin cfg0.N) : (iblk m c 3 t : FVec Ideal S4096x1024 .bf16) = wxA m c := by
  obtain ⟨i0, i1⟩ := idx_whole3 t
  funext y
  unfold iblk
  rw [View.read_apply]
  show wxA m c _ = wxA m c y
  refine congrArg (wxA m c) (funext fun a => Fin.ext ?_)
  match a with
  | ⟨0, _⟩ => show win0_3.index t (0 : Fin 2) * 4096 + 1 * (y 0).val = (y 0).val; rw [i0]; omega
  | ⟨1, _⟩ => show win0_3.index t (1 : Fin 2) * 1024 + 1 * (y 1).val = (y 1).val; rw [i1]; omega
theorem iblk4_eq (c : Dev nD) (t : Fin cfg0.N) : (iblk m c 4 t : FVec Ideal S4096x1024 .bf16) = whA m c := by
  obtain ⟨i0, i1⟩ := idx_whole4 t
  funext y
  unfold iblk
  rw [View.read_apply]
  show whA m c _ = whA m c y
  refine congrArg (whA m c) (funext fun a => Fin.ext ?_)
  match a with
  | ⟨0, _⟩ => show win0_4.index t (0 : Fin 2) * 4096 + 1 * (y 0).val = (y 0).val; rw [i0]; omega
  | ⟨1, _⟩ => show win0_4.index t (1 : Fin 2) * 1024 + 1 * (y 1).val = (y 1).val; rw [i1]; omega
theorem iblk5_eq (c : Dev nD) (t : Fin cfg0.N) : (iblk m c 5 t : FVec Ideal S4096 .f32) = bA m c := by
  have i0 := idx_whole5 t
  funext y
  unfold iblk
  rw [View.read_apply]
  show bA m c _ = bA m c y
  refine congrArg (bA m c) (funext fun a => Fin.ext ?_)
  match a with
  | ⟨0, _⟩ => show win0_5.index t (0 : Fin 1) * 4096 + 1 * (y 0).val = (y 0).val; rw [i0]; omega

/-! ## Where an entry of an output block sits in its array -/

theorem emb_out6 (t : Fin cfg0.N) (p : Fin 128) (q : Fin 1024) :
    (((cfg0.win 6).blk t).view.emb (ix2 p q) : S4096x1024.Idx) = ix2 (row t p) q := by
  obtain ⟨i0, i1⟩ := idx_rows6 t
  refine funext fun a => Fin.ext ?_
  match a with
  | ⟨0, _⟩ => show win0_6.index t (0 : Fin 2) * 128 + 1 * p.val = 128 * t.val + p.val; rw [i0]; omega
  | ⟨1, _⟩ => show win0_6.index t (1 : Fin 2) * 1024 + 1 * q.val = q.val; rw [i1]; omega
theorem emb_out7 (t : Fin cfg0.N) (p : Fin 128) (q : Fin 1024) :
    (((cfg0.win 7).blk t).view.emb (ix2 p q) : S4096x1024.Idx) = ix2 (row t p) q := by
  obtain ⟨i0, i1⟩ := idx_rows7 t
  refine funext fun a => Fin.ext ?_
  match a with
  | ⟨0, _⟩ => show win0_7.index t (0 : Fin 2) * 128 + 1 * p.val = 128 * t.val + p.val; rw [i0]; omega
  | ⟨1, _⟩ => show win0_7.index t (1 : Fin 2) * 1024 + 1 * q.val = q.val; rw [i1]; omega

/-! ## What each point writes back -/

/-- What point `t` writes back into the hidden-state array is block `t` of `hiddenArr` of the region-entry arrays. -/
theorem flushed6_eq (c : Dev nD) (t : Fin cfg0.N) :
    (dats m 0 c).flushed 6 t = ((cfg0.win 6).blk t).view.read (Elt Ideal) (Lstm.hiddenArr (xA m c) (hA m c) (cA m c) (wxA m c) (whA m c) (bA m c)) := by
  show (cfg0.win 6).cut (grid0.coords t) ((dats m 0 c).after 6 t) = _
  rw [after0_6]
  unfold outH
  rw [View.canon_unit_zero hz2]
  simp only [View.ld_unit_zero (S := S128x1024) hz2, View.ld_unit_zero (S := S4096x1024) hz2, View.ld_unit_zero (S := S4096) hz1]
  funext y
  obtain ⟨p, q, rfl⟩ : ∃ (p : Fin 128) (q : Fin 1024), y = ix2 p q := ⟨y 0, y 1, eq_ix2 y⟩
  rw [View.read_apply, emb_out6 t p q, Lstm.hiddenArr_ix2]
  show k0_pay3 (F := Ideal) (iblk m c 0 t) (iblk m c 1 t) (iblk m c 3 t) (iblk m c 4 t) (iblk m c 5 t) (iblk m c 2 t) (ix2 p q) = _
  refine (Pay.pay3_apply (iblk m c 0 t) (iblk m c 1 t) (iblk m c 3 t) (iblk m c 4 t) (iblk m c 5 t) (iblk m c 2 t) p q).trans ?_
  rw [iblk3_eq, iblk4_eq, iblk5_eq]
  exact Lstm.hiddenAt_rows (xA m c) (hA m c) (cA m c) (iblk m c 0 t) (iblk m c 1 t) (iblk m c 2 t) (wxA m c) (whA m c) (bA m c) (row t p) p
    (fun k => iblk0_apply m c t p k) (fun k => iblk1_apply m c t p k) (fun k => iblk2_apply m c t p k) q

/-- What point `t` writes back into the cell-state array is block `t` of `cellArr` of the region-entry arrays. -/
theorem flushed7_eq (c : Dev nD) (t : Fin cfg0.N) :
    (dats m 0 c).flushed 7 t = ((cfg0.win 7).blk t).view.read (Elt Ideal) (Lstm.cellArr (xA m c) (hA m c) (cA m c) (wxA m c) (whA m c) (bA m c)) := by
  show (cfg0.win 7).cut (grid0.coords t) ((dats m 0 c).after 7 t) = _
  rw [after0_7]
  unfold outC
  rw [View.canon_unit_zero hz2]
  simp only [View.ld_unit_zero (S := S128x1024) hz2, View.ld_unit_zero (S := S4096x1024) hz2, View.ld_unit_zero (S := S4096) hz1]
  funext y
  obtain ⟨p, q, rfl⟩ : ∃ (p : Fin 128) (q : Fin 1024), y = ix2 p q := ⟨y 0, y 1, eq_ix2 y⟩
  rw [View.read_apply, emb_out7 t p q, Lstm.cellArr_ix2]
  show k0_pay2 (F := Ideal) (iblk m c 0 t) (iblk m c 1 t) (iblk m c 3 t) (iblk m c 4 t) (iblk m c 5 t) (iblk m c 2 t) (ix2 p q) = _
  refine (Pay.pay2_apply (iblk m c 0 t) (iblk m c 1 t) (iblk m c 3 t) (iblk m c 4 t) (iblk m c 5 t) (iblk m c 2 t) p q).trans ?_
  rw [iblk3_eq, iblk4_eq, iblk5_eq]
  exact Lstm.cellAt_rows (xA m c) (hA m c) (cA m c) (iblk m c 0 t) (iblk m c 1 t) (iblk m c 2 t) (wxA m c) (whA m c) (bA m c) (row t p) p
    (fun k => iblk0_apply m c t p k) (fun k => iblk1_apply m c t p k) (fun k => iblk2_apply m c t p k) q

/-! ## The blocks tile the arrays -/

theorem mem_blk6 (t : Fin cfg0.N) (i : S4096x1024.Idx) :
    i ∈ ((cfg0.win 6).blk t).view.set ↔ ∀ a : Fin 2, win0_6.index t a * S128x1024.size a ≤ (i a).val ∧ (i a).val < win0_6.index t a * S128x1024.size a + S128x1024.size a := by
  show i ∈ ((View.whole main_v5_0).slice (win0_6.rect t)).set ↔ _
  rw [View.set_slice_whole, Rect.mem_set_unit]
  exact Iff.rfl

/-- Every index of the array lies in the block of the point its row falls in. -/
theorem cover6 (i : S4096x1024.Idx) : ∃ t : Fin cfg0.N, (cfg0.win 6).flush t = true ∧ i ∈ ((cfg0.win 6).blk t).view.set := by
  have h0 : (i 0).val < 4096 := (i 0).isLt
  have h1 : (i 1).val < 1024 := (i 1).isLt
  have hN : cfg0.N = 32 := N_0
  let t : Fin cfg0.N := ⟨(i 0).val / 128, by rw [hN]; omega⟩
  obtain ⟨i0, i1⟩ := idx_rows6 t
  refine ⟨t, flush0_6 t, ?_⟩
  rw [mem_blk6]
  intro a
  match a with
  | ⟨0, _⟩ => show win0_6.index t (0 : Fin 2) * 128 ≤ (i 0).val ∧ (i 0).val < win0_6.index t (0 : Fin 2) * 128 + 128
              rw [i0]; show (i 0).val / 128 * 128 ≤ (i 0).val ∧ (i 0).val < (i 0).val / 128 * 128 + 128; omega
  | ⟨1, _⟩ => show win0_6.index t (1 : Fin 2) * 1024 ≤ (i 1).val ∧ (i 1).val < win0_6.index t (1 : Fin 2) * 1024 + 1024
              rw [i1]; omega

theorem mem_blk7 (t : Fin cfg0.N) (i : S4096x1024.Idx) :
    i ∈ ((cfg0.win 7).blk t).view.set ↔ ∀ a : Fin 2, win0_7.index t a * S128x1024.size a ≤ (i a).val ∧ (i a).val < win0_7.index t a * S128x1024.size a + S128x1024.size a := by
  show i ∈ ((View.whole main_v5_1).slice (win0_7.rect t)).set ↔ _
  rw [View.set_slice_whole, Rect.mem_set_unit]
  exact Iff.rfl

/-- Every index of the array lies in the block of the point its row falls in. -/
theorem cover7 (i : S4096x1024.Idx) : ∃ t : Fin cfg0.N, (cfg0.win 7).flush t = true ∧ i ∈ ((cfg0.win 7).blk t).view.set := by
  have h0 : (i 0).val < 4096 := (i 0).isLt
  have h1 : (i 1).val < 1024 := (i 1).isLt
  have hN : cfg0.N = 32 := N_0
  let t : Fin cfg0.N := ⟨(i 0).val / 128, by rw [hN]; omega⟩
  obtain ⟨i0, i1⟩ := idx_rows7 t
  refine ⟨t, flush0_7 t, ?_⟩
  rw [mem_blk7]
  intro a
  match a with
  | ⟨0, _⟩ => show win0_7.index t (0 : Fin 2) * 128 ≤ (i 0).val ∧ (i 0).val < win0_7.index t (0 : Fin 2) * 128 + 128
              rw [i0]; show (i 0).val / 128 * 128 ≤ (i 0).val ∧ (i 0).val < (i 0).val / 128 * 128 + 128; omega
  | ⟨1, _⟩ => show win0_7.index t (1 : Fin 2) * 1024 ≤ (i 1).val ∧ (i 1).val < win0_7.index t (1 : Fin 2) * 1024 + 1024
              rw [i1]; omega

/-! ## The arrays after the run -/

theorem finalH (c : Dev nD) : (dats m 0 c).arrAt 6 cfg0.N = Lstm.hiddenArr (xA m c) (hA m c) (cA m c) (wxA m c) (whA m c) (bA m c) :=
  (dats m 0 c).arrAt_eq_of_cover 6 (Lstm.hiddenArr (xA m c) (hA m c) (cA m c) (wxA m c) (whA m c) (bA m c)) (fun t _ => flushed6_eq m c t) cover6

theorem finalC (c : Dev nD) : (dats m 0 c).arrAt 7 cfg0.N = Lstm.cellArr (xA m c) (hA m c) (cA m c) (wxA m c) (whA m c) (bA m c) :=
  (dats m 0 c).arrAt_eq_of_cover 7 (Lstm.cellArr (xA m c) (hA m c) (cA m c) (wxA m c) (whA m c) (bA m c)) (fun t _ => flushed7_eq m c t) cover7

end Cert.KernelIdeal.Val

end
-- ==== Proof.KernelRun.lean ====
/-
  The idealized kernel's run, read: each result array as the specification's function of the LAUNCH contents of
  the fifteen arguments.

  The region finds `x`, `h_prev`, `c_prev` as launched, and finds in the three buffers the host operations wrote
  the four input-side weight matrices stacked row-wise, the four hidden-side ones stacked row-wise, and the four
  biases stacked — in the order input, forget, cell, output gate. So the hidden-state result (returned twice) and
  the cell-state result end at `hiddenArr` / `cellArr` of those, and every argument ends unchanged.
-/
import proofs.«127987_j59966333387333_1_alg».proof.Proof.KernelValue

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- Four 1024 × 1024 matrices stacked row-wise. -/
abbrev stackW (a b c d : FVec Ideal S1024x1024 .f32) : FVec Ideal S4096x1024 .f32 :=
  concatenate S4096x1024 0 [⟨S1024x1024, a⟩, ⟨S1024x1024, b⟩, ⟨S1024x1024, c⟩, ⟨S1024x1024, d⟩] concatenates_S1024x1024_S1024x1024_S1024x1024_S1024x1024_S4096x1024_d0
/-- Four 1024-vectors stacked. -/
abbrev stackB (a b c d : FVec Ideal S1024 .f32) : FVec Ideal S4096 .f32 :=
  concatenate S4096 0 [⟨S1024, a⟩, ⟨S1024, b⟩, ⟨S1024, c⟩, ⟨S1024, d⟩] concatenates_S1024_S1024_S1024_S1024_S4096_d0

/-- An argument's launch contents. -/
abbrev arg (c : Dev nD) (b : Ref sig .tc) : Buf (Elt Ideal) ((c : Thread nD τ).loc b) := m ((c : Thread nD τ).loc b)

/-! ## What the host operations left for the region -/

theorem wx_eq (c : Dev nD) : wxA m c = stackW (arg m c main_arg3) (arg m c main_arg6) (arg m c main_arg9) (arg m c main_arg12) := by
  show V m c main_v1 = _
  dsimp only [V, hostOps0]
  after_results
  rfl

theorem wh_eq (c : Dev nD) : whA m c = stackW (arg m c main_arg4) (arg m c main_arg7) (arg m c main_arg10) (arg m c main_arg13) := by
  show V m c main_v3 = _
  dsimp only [V, hostOps0]
  after_results
  rfl

theorem b_eq (c : Dev nD) : bA m c = stackB (arg m c main_arg5) (arg m c main_arg8) (arg m c main_arg11) (arg m c main_arg14) := by
  show V m c main_v4 = _
  dsimp only [V, hostOps0]
  after_results
  rfl

theorem x_eq (c : Dev nD) : xA m c = arg m c main_arg0 := (V_arg m c main_arg0 (by decide) (by decide) (by decide) (by decide) (by decide))
theorem h_eq (c : Dev nD) : hA m c = arg m c main_arg1 := (V_arg m c main_arg1 (by decide) (by decide) (by decide) (by decide) (by decide))
theorem c_eq (c : Dev nD) : cA m c = arg m c main_arg2 := (V_arg m c main_arg2 (by decide) (by decide) (by decide) (by decide) (by decide))

/-! ## The results -/

/-- The new hidden state, of the launch contents. -/
def resH (c : Dev nD) : FVec Ideal S4096x1024 .f32 :=
  Lstm.hiddenArr (arg m c main_arg0) (arg m c main_arg1) (arg m c main_arg2)
    (stackW (arg m c main_arg3) (arg m c main_arg6) (arg m c main_arg9) (arg m c main_arg12))
    (stackW (arg m c main_arg4) (arg m c main_arg7) (arg m c main_arg10) (arg m c main_arg13))
    (stackB (arg m c main_arg5) (arg m c main_arg8) (arg m c main_arg11) (arg m c main_arg14))

/-- The new cell state, of the launch contents. -/
def resC (c : Dev nD) : FVec Ideal S4096x1024 .f32 :=
  Lstm.cellArr (arg m c main_arg0) (arg m c main_arg1) (arg m c main_arg2)
    (stackW (arg m c main_arg3) (arg m c main_arg6) (arg m c main_arg9) (arg m c main_arg12))
    (stackW (arg m c main_arg4) (arg m c main_arg7) (arg m c main_arg10) (arg m c main_arg13))
    (stackB (arg m c main_arg5) (arg m c main_arg8) (arg m c main_arg11) (arg m c main_arg14))

theorem finalH' (c : Dev nD) : (dats m 0 c).arrAt 6 cfg0.N = resH m c := by
  rw [finalH, x_eq, h_eq, c_eq, wx_eq, wh_eq, b_eq]; rfl

theorem finalC' (c : Dev nD) : (dats m 0 c).arrAt 7 cfg0.N = resC m c := by
  rw [finalC, x_eq, h_eq, c_eq, wx_eq, wh_eq, b_eq]; rfl

/-- The run: every weakly fair execution terminates with the three results (the hidden state twice, the cell
    state) at the specification of the launch contents, and every argument unchanged. -/
theorem run : θ_run defs (onTc (τ := τ) (main (F := Ideal))) ⟨m, fun _ => 0, ρ⟩ fun r => ∀ c : Dev nD,
      r.2.mem ((c.tc : Thread nD τ).loc main_v5_0) = resH m c
      ∧ r.2.mem ((c.tc : Thread nD τ).loc main_v5_0) = resH m c
      ∧ r.2.mem ((c.tc : Thread nD τ).loc main_v5_1) = resC m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨((h c).1 6).trans (finalH' m c), ((h c).1 6).trans (finalH' m c), ((h c).1 7).trans (finalC' m c),
      ((h c).1 0).trans (((dats m 0 c).arrAt_in 0 rfl _).trans ((A_eq m c 0).trans (V_arg m c main_arg0 (by decide) (by decide) (by decide) (by decide) (by decide)))),
      ((h c).1 1).trans (((dats m 0 c).arrAt_in 1 rfl _).trans ((A_eq m c 1).trans (V_arg m c main_arg1 (by decide) (by decide) (by decide) (by decide) (by decide)))),
      ((h c).1 2).trans (((dats m 0 c).arrAt_in 2 rfl _).trans ((A_eq m c 2).trans (V_arg m c main_arg2 (by decide) (by decide) (by decide) (by decide) (by decide)))),
      ((h c).2 main_arg3 (Pipeline.mem_restRefs_of main_arg3 (by decide) (by decide))).trans (V_arg m c main_arg3 (by decide) (by decide) (by decide) (by decide) (by decide)),
      ((h c).2 main_arg4 (Pipeline.mem_restRefs_of main_arg4 (by decide) (by decide))).trans (V_arg m c main_arg4 (by decide) (by decide) (by decide) (by decide) (by decide)),
      ((h c).2 main_arg5 (Pipeline.mem_restRefs_of main_arg5 (by decide) (by decide))).trans (V_arg m c main_arg5 (by decide) (by decide) (by decide) (by decide) (by decide)),
      ((h c).2 main_arg6 (Pipeline.mem_restRefs_of main_arg6 (by decide) (by decide))).trans (V_arg m c main_arg6 (by decide) (by decide) (by decide) (by decide) (by decide)),
      ((h c).2 main_arg7 (Pipeline.mem_restRefs_of main_arg7 (by decide) (by decide))).trans (V_arg m c main_arg7 (by decide) (by decide) (by decide) (by decide) (by decide)),
      ((h c).2 main_arg8 (Pipeline.mem_restRefs_of main_arg8 (by decide) (by decide))).trans (V_arg m c main_arg8 (by decide) (by decide) (by decide) (by decide) (by decide)),
      ((h c).2 main_arg9 (Pipeline.mem_restRefs_of main_arg9 (by decide) (by decide))).trans (V_arg m c main_arg9 (by decide) (by decide) (by decide) (by decide) (by decide)),
      ((h c).2 main_arg10 (Pipeline.mem_restRefs_of main_arg10 (by decide) (by decide))).trans (V_arg m c main_arg10 (by decide) (by decide) (by decide) (by decide) (by decide)),
      ((h c).2 main_arg11 (Pipeline.mem_restRefs_of main_arg11 (by decide) (by decide))).trans (V_arg m c main_arg11 (by decide) (by decide) (by decide) (by decide) (by decide)),
      ((h c).2 main_arg12 (Pipeline.mem_restRefs_of main_arg12 (by decide) (by decide))).trans (V_arg m c main_arg12 (by decide) (by decide) (by decide) (by decide) (by decide)),
      ((h c).2 main_arg13 (Pipeline.mem_restRefs_of main_arg13 (by decide) (by decide))).trans (V_arg m c main_arg13 (by decide) (by decide) (by decide) (by decide) (by decide)),
      ((h c).2 main_arg14 (Pipeline.mem_restRefs_of main_arg14 (by decide) (by decide))).trans (V_arg m c main_arg14 (by decide) (by decide) (by decide) (by decide) (by decide))⟩)
    (run_main m ρ)

end Cert.KernelIdeal.Val

end
-- ==== Proof.RefValue.lean ====
/-
  The idealized reference is the specification.

  The reference stacks the four gates' weights and biases row-wise (`val_main_v0`, `val_main_v1`, `val_main_v2`:
  kept as they are, never opened), transposes each stacked weight array and contracts it with `x` / `h_prev` over
  the 1024 features — so entry `(r, j)` of a product pairs row `r` of the batch with ROW `j` of the stacked
  weights —, adds the two products and the bias broadcast down the rows, cuts the four 1024-column slices, and
  applies `1 / (1 + e^(-·))` (spelt with negate, exponential, add and divide, the ones being the literal
  `0x3F800000`), `tanh`, and the cell update. Read one stage at a time through the generated read-at-an-index
  lemmas, at `(r, q)` this is `cellAt` and `hiddenAt`.
-/
import proofs.«127987_j59966333387333_1_alg».proof.Proof.Gen.ReferenceIdeal.Run
import proofs.«127987_j59966333387333_1_alg».proof.Proof.Gen.ReferenceIdeal.Read
import proofs.«127987_j59966333387333_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

variable (x0 x1 x2 : FVec Ideal S4096x1024 .f32) (x3 x4 x6 x7 x9 x10 x12 x13 : FVec Ideal S1024x1024 .f32)
  (x5 x8 x11 x14 : FVec Ideal S1024 .f32)

/-- The pre-activations: the stage before the four slices, at `(r, j)`. -/
theorem gate_eq (r : Fin 4096) (j : Fin 4096) :
    val_main_v10 (F := Ideal) x0 x1 x3 x4 x5 x6 x7 x8 x9 x10 x11 x12 x13 x14 (ix2 r j) = Lstm.gate x0 x1 (val_main_v0 (F := Ideal) x3 x6 x9 x12) (val_main_v1 (F := Ideal) x4 x7 x10 x13) (val_main_v2 (F := Ideal) x5 x8 x11 x14) r j := by
  have e1 : ∀ k : Fin 1024, lidx_main_v4 (ix2 r j) k = ix2 r k := fun k => funext fun a => Fin.ext (by
    match a with | ⟨0, _⟩ => rfl | ⟨1, _⟩ => rfl)
  have e2 : ∀ k : Fin 1024, idx_main_v3 (ridx_main_v4 (ix2 r j) k) = ix2 j k := fun k => funext fun a => Fin.ext (by
    match a with | ⟨0, _⟩ => rfl | ⟨1, _⟩ => rfl)
  have e3 : ∀ k : Fin 1024, lidx_main_v6 (ix2 r j) k = ix2 r k := fun k => funext fun a => Fin.ext (by
    match a with | ⟨0, _⟩ => rfl | ⟨1, _⟩ => rfl)
  have e4 : ∀ k : Fin 1024, idx_main_v5 (ridx_main_v6 (ix2 r j) k) = ix2 j k := fun k => funext fun a => Fin.ext (by
    match a with | ⟨0, _⟩ => rfl | ⟨1, _⟩ => rfl)
  have e5 : idx_main_v8 (idx_main_v9 (ix2 r j)) = ix1 j := funext fun a => Fin.ext (by
    match a with | ⟨0, _⟩ => rfl)
  rw [val_main_v10_apply, val_main_v7_apply, val_main_v4_apply, val_main_v6_apply, val_main_v9_apply, val_main_v8_apply]
  simp only [val_main_v3_apply, val_main_v5_apply, e1, e2, e3, e4, e5]
  rfl

/-- The four slices' index maps at `(r, q)`: columns `q`, `1024 + q`, `2048 + q`, `3072 + q` of row `r`. -/
theorem slice0 (r : Fin 4096) (q : Fin 1024) : idx_main_v11 (ix2 r q) = ix2 r (Lstm.gcol 0 (by norm_num) q) :=
  funext fun a => Fin.ext (by match a with | ⟨0, _⟩ => rfl | ⟨1, _⟩ => exact (Nat.zero_add _).symm)
theorem slice1 (r : Fin 4096) (q : Fin 1024) : idx_main_v12 (ix2 r q) = ix2 r (Lstm.gcol 1024 (by norm_num) q) :=
  funext fun a => Fin.ext (by match a with | ⟨0, _⟩ => rfl | ⟨1, _⟩ => rfl)
theorem slice2 (r : Fin 4096) (q : Fin 1024) : idx_main_v13 (ix2 r q) = ix2 r (Lstm.gcol 2048 (by norm_num) q) :=
  funext fun a => Fin.ext (by match a with | ⟨0, _⟩ => rfl | ⟨1, _⟩ => rfl)
theorem slice3 (r : Fin 4096) (q : Fin 1024) : idx_main_v14 (ix2 r q) = ix2 r (Lstm.gcol 3072 (by norm_num) q) :=
  funext fun a => Fin.ext (by match a with | ⟨0, _⟩ => rfl | ⟨1, _⟩ => rfl)

/-- The reference's new cell state at `(r, q)`. -/
theorem cell_at (r : Fin 4096) (q : Fin 1024) :
    val_main_v36 (F := Ideal) x0 x1 x2 x3 x4 x5 x6 x7 x8 x9 x10 x11 x12 x13 x14 (ix2 r q) = Lstm.cellAt x0 x1 x2 (val_main_v0 (F := Ideal) x3 x6 x9 x12) (val_main_v1 (F := Ideal) x4 x7 x10 x13) (val_main_v2 (F := Ideal) x5 x8 x11 x14) r q := by
  unfold Lstm.cellAt
  simp only [val_main_v36_apply, val_main_v34_apply, val_main_v35_apply, val_main_v26_apply, val_main_v25_apply, val_main_cst_2_apply, val_main_v24_apply, val_main_v23_apply, val_main_cst_1_apply, val_main_v22_apply, val_main_v21_apply, val_main_v12_apply, val_main_v20_apply, val_main_v19_apply, val_main_cst_0_apply, val_main_v18_apply, val_main_v17_apply, val_main_cst_apply, val_main_v16_apply, val_main_v15_apply, val_main_v11_apply, val_main_v27_apply, val_main_v13_apply,
    slice0, slice1, slice2, gate_eq,
    Ideal.addf_def, Ideal.mulf_def, Ideal.hostDivf_def, Ideal.hostUnary_exp_def, Ideal.hostUnary_tanh_def, Ideal.hostNegf_def,
    Ideal.negf_def, Ideal.ofBits_def, Lstm.ofBits_one_f32, Lstm.logistic_spelt]

/-- The reference's new hidden state at `(r, q)`. -/
theorem hidden_at (r : Fin 4096) (q : Fin 1024) :
    val_main_v38 (F := Ideal) x0 x1 x2 x3 x4 x5 x6 x7 x8 x9 x10 x11 x12 x13 x14 (ix2 r q) = Lstm.hiddenAt x0 x1 x2 (val_main_v0 (F := Ideal) x3 x6 x9 x12) (val_main_v1 (F := Ideal) x4 x7 x10 x13) (val_main_v2 (F := Ideal) x5 x8 x11 x14) r q := by
  unfold Lstm.hiddenAt
  simp only [val_main_v38_apply, val_main_v33_apply, val_main_v32_apply, val_main_cst_4_apply, val_main_v31_apply, val_main_v30_apply, val_main_cst_3_apply, val_main_v29_apply, val_main_v28_apply, val_main_v14_apply, val_main_v37_apply,
    slice3, gate_eq, cell_at,
    Ideal.addf_def, Ideal.mulf_def, Ideal.hostDivf_def, Ideal.hostUnary_exp_def, Ideal.hostUnary_tanh_def, Ideal.hostNegf_def,
    Ideal.negf_def, Ideal.ofBits_def, Lstm.ofBits_one_f32, Lstm.logistic_spelt]

/-- As arrays. -/
theorem cell_eq : val_main_v36 (F := Ideal) x0 x1 x2 x3 x4 x5 x6 x7 x8 x9 x10 x11 x12 x13 x14 = Lstm.cellArr x0 x1 x2 (val_main_v0 (F := Ideal) x3 x6 x9 x12) (val_main_v1 (F := Ideal) x4 x7 x10 x13) (val_main_v2 (F := Ideal) x5 x8 x11 x14) := by
  funext i
  obtain ⟨r, q, rfl⟩ : ∃ (r : Fin 4096) (q : Fin 1024), i = ix2 r q := ⟨i 0, i 1, eq_ix2 i⟩
  rw [cell_at, Lstm.cellArr_ix2]

theorem hidden_eq : val_main_v38 (F := Ideal) x0 x1 x2 x3 x4 x5 x6 x7 x8 x9 x10 x11 x12 x13 x14 = Lstm.hiddenArr x0 x1 x2 (val_main_v0 (F := Ideal) x3 x6 x9 x12) (val_main_v1 (F := Ideal) x4 x7 x10 x13) (val_main_v2 (F := Ideal) x5 x8 x11 x14) := by
  funext i
  obtain ⟨r, q, rfl⟩ : ∃ (r : Fin 4096) (q : Fin 1024), i = ix2 r q := ⟨i 0, i 1, eq_ix2 i⟩
  rw [hidden_at, Lstm.hiddenArr_ix2]

end Cert.ReferenceIdeal.RefValue

end
-- ==== Proof.lean ====
/-
  A fused LSTM cell on a TPU against its jnp reference: equivalence over the extended reals.

  Both programs stack the four gates' weight matrices and biases row-wise (input, forget, cell, output) and
  compute, for each of the 4096 rows of the batch,

      gates = x · Wxᵀ + h_prev · Whᵀ + b,      c' = σ(f) · c_prev + σ(i) · tanh(g),      h' = σ(o) · tanh(c'),

  returning `(h', h', c')`. The kernel does it 128 rows at a time over a grid of 32 points, with the weights
  and the bias resident; it rounds the matrix products' operands to a narrower float format, which is the
  identity at the ideal values, accumulates each product into zeros, and uses the sigmoid as one operation
  where the reference spells `1 / (1 + e^(-·))`. At the ideal values all of that is one function of the
  arguments (`Cert.Lstm`): the only difference left is how the sums over the 1024 features are indexed, and
  no step needs an entry to be finite, so the precondition is never opened.

  * the two kernel programs' frames: by hand over the library's one-region frame theorem (`Fr.frame`);
  * the reference's frame: its generated run, the results dropped;
  * the ideal pass rewrote nothing, so there is nothing to preserve;
  * the equivalence: the kernel's run read as the specification of the launch contents (`Val.run`), the
    reference's generated run read stage by stage as the same (`RefValue`), and the arguments' agreement.
-/
import proofs.«127987_j59966333387333_1_alg».proof.Defs
import proofs.«127987_j59966333387333_1_alg».proof.Proof.Gen.Kernel
import proofs.«127987_j59966333387333_1_alg».proof.Proof.Gen.KernelIdeal
import proofs.«127987_j59966333387333_1_alg».proof.Proof.Gen.ReferenceIdeal
import proofs.«127987_j59966333387333_1_alg».proof.Proof.Gen.Pre_finite_inputs
import proofs.«127987_j59966333387333_1_alg».proof.Proof.KernelFrame
import proofs.«127987_j59966333387333_1_alg».proof.Proof.KernelIdealFrame
import proofs.«127987_j59966333387333_1_alg».proof.Proof.KernelRun
import proofs.«127987_j59966333387333_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Fr.frame (F := Bits) m ρ

theorem frame_ki : Cert.frame_KernelIdeal := fun m ρ _ => Cert.KernelIdeal.Fr.frame (F := Ideal) m ρ

theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- From memories agreeing on the fifteen arguments both programs end with the hidden state (twice) and the
    cell state at the specification of those arguments. -/
theorem algebraic : Cert.algebraic_KernelIdeal_ReferenceIdeal := by
  intro m ρ m' ρ' _ hagree
  refine ⟨fun c => Cert.KernelIdeal.Val.resH m c, fun c => Cert.KernelIdeal.Val.resH m c, fun c => Cert.KernelIdeal.Val.resC m c,
    Cert.KernelIdeal.Val.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12, a13, a14⟩ := hagree c
  have eH : Cert.ReferenceIdeal.Value.res_main_v38 m' c = Cert.KernelIdeal.Val.resH m c := by
    rw [Cert.ReferenceIdeal.Read.val_main_v38_eq, Cert.ReferenceIdeal.RefValue.hidden_eq, a0, a1, a2, a3, a4, a5, a6, a7, a8, a9, a10, a11, a12, a13, a14]
    rfl
  have eC : Cert.ReferenceIdeal.Value.res_main_v36 m' c = Cert.KernelIdeal.Val.resC m c := by
    rw [Cert.ReferenceIdeal.Read.val_main_v36_eq, Cert.ReferenceIdeal.RefValue.cell_eq, a0, a1, a2, a3, a4, a5, a6, a7, a8, a9, a10, a11, a12, a13, a14]
    rfl
  exact ⟨(h c).1.trans eH, (h c).2.1.trans eH, (h c).2.2.1.trans eC, (h c).2.2.2⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
